-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S8192x1024 : Shape := ⟨2, ![8192, 1024]⟩
abbrev S2048x1024 : Shape := ⟨2, ![2048, 1024]⟩
abbrev S2048 : Shape := ⟨1, ![2048]⟩
abbrev S2048x2048 : Shape := ⟨2, ![2048, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S2048 : S_.BroadcastsInDim S2048 (![] : Fin 0 → Fin S2048.rank)
  reducesTo_S2048_S_d0 : S2048.ReducesTo [0] S_
  bcast_S_S2048x2048 : S_.BroadcastsInDim S2048x2048 (![] : Fin 0 → Fin S2048x2048.rank)
  reducesTo_S2048x2048_S_d0_1 : S2048x2048.ReducesTo [0, 1] S_

variable [Facts]

def fn_part1 {F : FTy → Type} [FloatOps F] (main_arg4 : FVec F S2048x2048 .f32) (main_arg5 : FVec F S2048x2048 .f32) (main_arg6 : FVec F S2048 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  main_v33

def fn {F : FTy → Type} [FloatOps F] (main_arg0 : FVec F S8192x2048 .f32) (main_arg1 : FVec F S8192x1024 .f32) (main_arg2 : FVec F S2048x1024 .f32) (main_arg3 : FVec F S2048 .f32) (main_arg4 : FVec F S2048x2048 .f32) (main_arg5 : FVec F S2048x2048 .f32) (main_arg6 : FVec F S2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_arg6 main_v13 main_v16
-- ==== Kernel.lean ====
abbrev S8192x2048 : Shape := ⟨2, ![8192, 2048]⟩
abbrev S8192x1024 : Shape := ⟨2, ![8192, 1024]⟩
abbrev S2048x1024 : Shape := ⟨2, ![2048, 1024]⟩
abbrev S2048 : Shape := ⟨1, ![2048]⟩
abbrev S2048x2048 : Shape := ⟨2, ![2048, 2048]⟩
abbrev S1024x2048 : Shape := ⟨2, ![1024, 2048]⟩
abbrev S4096x2048 : Shape := ⟨2, ![4096, 2048]⟩
abbrev S1x2048 : Shape := ⟨2, ![1, 2048]⟩
abbrev S256x2048 : Shape := ⟨2, ![256, 2048]⟩
abbrev S256x1024 : Shape := ⟨2, ![256, 1024]⟩
abbrev S256x4096 : Shape := ⟨2, ![256, 4096]⟩

abbrev nBuf : Space → Nat
  | .hbm => 17
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S2048x1024, .f32⟩
  | .hbm, ⟨3, _⟩ => ⟨S2048, .f32⟩
  | .hbm, ⟨4, _⟩ => ⟨S2048x2048, .f32⟩
  | .hbm, ⟨5, _⟩ => ⟨S2048x2048, .f32⟩
  | .hbm, ⟨6, _⟩ => ⟨S2048, .f32⟩
  | .hbm, ⟨7, _⟩ => ⟨S1024x2048, .f32⟩
  | .hbm, ⟨8, _⟩ => ⟨S1024x2048, .bf16⟩
  | .hbm, ⟨9, _⟩ => ⟨S2048x2048, .f32⟩
  | .hbm, ⟨10, _⟩ => ⟨S2048x2048, .f32⟩
  | .hbm, ⟨11, _⟩ => ⟨S4096x2048, .f32⟩
  | .hbm, ⟨12, _⟩ => ⟨S4096x2048, .bf16⟩
  | .hbm, ⟨13, _⟩ => ⟨S8192x1024, .bf16⟩
  | .hbm, ⟨14, _⟩ => ⟨S1x2048, .f32⟩
  | .hbm, ⟨15, _⟩ => ⟨S1x2048, .f32⟩
  | .hbm, ⟨16, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S256x1024, .bf16⟩
  | .local _ .vmem, ⟨3, _⟩ => ⟨S256x1024, .bf16⟩
  | .local _ .vmem, ⟨4, _⟩ => ⟨S1024x2048, .bf16⟩
  | .local _ .vmem, ⟨5, _⟩ => ⟨S1x2048, .f32⟩
  | .local _ .vmem, ⟨6, _⟩ => ⟨S4096x2048, .bf16⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S2048x1024_S1024x2048_1_0 : S2048x1024.Transposes [1, 0] S1024x2048
  bitsLt_bf16_f32 : FTy.bits .bf16 < FTy.bits .f32
  transposes_S2048x2048_S2048x2048_1_0 : S2048x2048.Transposes [1, 0] S2048x2048
  concatenates_S2048x2048_S2048x2048_S4096x2048_d0 : Shape.Concatenates [S2048x2048, S2048x2048] S4096x2048 0
  shapeCasts_S2048_S1x2048 : S2048.ShapeCasts S1x2048
  inb_S256x2048_S256x2048_0_0 : ∀ a, (![0, 0] : Fin 2 → Nat) a + S256x2048.size a ≤ S256x2048.size a
  h_S256x2048 : 0 < S256x2048.numel
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  concatenates_S256x2048_S256x2048_S256x4096_d1 : Shape.Concatenates [S256x2048, S256x2048] S256x4096 1
  inb_S4096x2048_S4096x2048_0_0 : ∀ a, (![0, 0] : Fin 2 → Nat) a + S4096x2048.size a ≤ S4096x2048.size a
  h_S4096x2048 : 0 < S4096x2048.numel
  shapeCasts_S4096x2048_S4096x2048 : S4096x2048.ShapeCasts S4096x2048
  dot_S256x1024_S1024x2048_S256x2048_1_0_0_1_n_n_wf : DotDims.WF S256x1024 S1024x2048 S256x2048 [1] [0] [0] [1] [] []
  dot_S256x4096_S4096x2048_S256x2048_1_0_0_1_n_n_wf : DotDims.WF S256x4096 S4096x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S8192x2048.size a
  hwx0_0 : ∀ i : grid0.Coords, EltTy.bits .f32 = 32 ∨ (Rect.block (s := S8192x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .bf16 = 32 ∨ (Rect.block (s := S8192x1024) S256x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S1024x2048.size a
  hwx0_2 : ∀ i : grid0.Coords, EltTy.bits .bf16 = 32 ∨ (Rect.block (s := S1024x2048) S1024x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x2048.size a ≤ S4096x2048.size a
  hwx0_4 : ∀ i : grid0.Coords, EltTy.bits .bf16 = 32 ∨ (Rect.block (s := S4096x2048) S4096x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x2048.size a ≤ S8192x2048.size a
  hwx0_6 : ∀ i : grid0.Coords, EltTy.bits .f32 = 32 ∨ (Rect.block (s := S8192x2048) S256x2048.size (cc0_transform_6 i) (hinb0_6 i)).WholeWords (EltTy.packing .f32)

variable [Facts₀]

def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf
def dot_S256x4096_S4096x2048_S256x2048_1_0_0_1_n_n : DotDims S256x4096 S4096x2048 S256x2048 where
  lhsContracting := [1]
  rhsContracting := [0]
  lhsNonContracting := [0]
  rhsNonContracting := [1]
  lhsBatch := []
  rhsBatch := []
  wf := dot_S256x4096_S4096x2048_S256x2048_1_0_0_1_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S4096x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S256x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S8192x1024 : Shape := ⟨2, ![8192, 1024]⟩
abbrev S2048x1024 : Shape := ⟨2, ![2048, 1024]⟩
abbrev S2048 : Shape := ⟨1, ![2048]⟩
abbrev S2048x2048 : Shape := ⟨2, ![2048, 2048]⟩
abbrev S1024x2048 : Shape := ⟨2, ![1024, 2048]⟩
abbrev S1x2048 : Shape := ⟨2, ![1, 2048]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S2048x1024, .f32⟩
  | .hbm, ⟨3, _⟩ => ⟨S2048, .f32⟩
  | .hbm, ⟨4, _⟩ => ⟨S2048x2048, .f32⟩
  | .hbm, ⟨5, _⟩ => ⟨S2048x2048, .f32⟩
  | .hbm, ⟨6, _⟩ => ⟨S2048, .f32⟩
  | .hbm, ⟨7, _⟩ => ⟨S1024x2048, .f32⟩
  | .hbm, ⟨8, _⟩ => ⟨S8192x2048, .f32⟩
  | .hbm, ⟨9, _⟩ => ⟨S1x2048, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S2048x2048, .f32⟩
  | .hbm, ⟨14, _⟩ => ⟨S8192x2048, .f32⟩
  | .hbm, ⟨15, _⟩ => ⟨S2048x2048, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S_, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]

class Facts₀ : Prop where
  transposes_S2048x1024_S1024x2048_1_0 : S2048x1024.Transposes [1, 0] S1024x2048
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  transposes_S2048x2048_S2048x2048_1_0 : S2048x2048.Transposes [1, 0] S2048x2048
  bcast_S_S8192x2048 : S_.BroadcastsInDim S8192x2048 (![] : Fin 0 → Fin S8192x2048.rank)
  dot_S8192x1024_S1024x2048_S8192x2048_1_0_0_1_n_n_wf : DotDims.WF S8192x1024 S1024x2048 S8192x2048 [1] [0] [0] [1] [] []
  dot_S8192x2048_S2048x2048_S8192x2048_1_0_0_1_n_n_wf : DotDims.WF S8192x2048 S2048x2048 S8192x2048 [1] [0] [0] [1] [] []

variable [Facts₀]

def dot_S8192x1024_S1024x2048_S8192x2048_1_0_0_1_n_n : DotDims S8192x1024 S1024x2048 S8192x2048 where
  lhsContracting := [1]
  rhsContracting := [0]
  lhsNonContracting := [0]
  rhsNonContracting := [1]
  lhsBatch := []
  rhsBatch := []
  wf := dot_S8192x1024_S1024x2048_S8192x2048_1_0_0_1_n_n_wf
def dot_S8192x2048_S2048x2048_S8192x2048_1_0_0_1_n_n : DotDims S8192x2048 S2048x2048 S8192x2048 where
  lhsContracting := [1]
  rhsContracting := [0]
  lhsNonContracting := [0]
  rhsNonContracting := [1]
  lhsBatch := []
  rhsBatch := []
  wf := dot_S8192x2048_S2048x2048_S8192x2048_1_0_0_1_n_n_wf

class Facts : Prop extends Facts₀ where

variable [Facts]
-- ==== Proof.LibMlp.lean ====
/-
  One dense stage of a graph network's per-node perceptron, as a function on the extended reals, index by index:
  a matrix product, a bias, and an evaluation-mode batch normalisation  (a - m) * rsqrt (v + eps) * g + b , optionally
  followed by a rectifier  max a 0 .  Written over PLAIN coordinates (`Fin`) so that a kernel's row block and the
  whole array are the same function of their rows, and read off the two spellings a program may give it: the
  vector dialect's (a matrix-unit product into a zero accumulator, row vectors broadcast down the rows) and the
  host's (a `dot_general`, vectors broadcast in two steps).
-/
import Idealize.ShloMosaic.PureOps.Ideal
import Idealize.ShloMosaic.PureOps.Ideal.Laws
import Idealize.ShloMosaic.Lib.ValueIdx
import Idealize.ShloMosaic.Lib.Pipeline.Value

noncomputable section

open Idealize.ShloMosaic Idealize.ShloMosaic.ValueIdx

namespace Cert.Mlp

/-- The variance offset of the normalisation: the single-precision word nearest 1e-5, read as an extended real. -/
def eps : EReal := Ideal.ofBits .f32 0x3727C5AC#32
/-- The rectifier's floor: the zero word. -/
def zero : EReal := Ideal.ofBits .f32 0x00000000#32

/-- Evaluation-mode batch normalisation of one value. -/
def bn (a m v g b : EReal) : EReal := (a - m) * Ideal.rsqrt (v + eps) * g + b

/-- A dense stage: row `i 0` of `a` against column `i 1` of `W`, plus the bias, normalised. -/
def lin {N K H : ℕ} (a : (⟨2, ![N, K]⟩ : Shape).Idx → EReal) (W : (⟨2, ![K, H]⟩ : Shape).Idx → EReal)
    (b g be m v : Fin H → EReal) : (⟨2, ![N, H]⟩ : Shape).Idx → EReal := fun i =>
  bn ((∑ k : Fin K, a (ix2 (i 0) k) * W (ix2 k (i 1))) + b (i 1)) (m (i 1)) (v (i 1)) (g (i 1)) (be (i 1))

/-- A one-row matrix read as a vector of its entries. -/
def row {H : ℕ} (x : (⟨2, ![1, H]⟩ : Shape).Idx → EReal) : Fin H → EReal := fun h => x (ix2 0 h)
/-- A rank-one array read as a vector of its entries. -/
def vec {H : ℕ} (x : (⟨1, ![H]⟩ : Shape).Idx → EReal) : Fin H → EReal := fun h => x (ix1 h)

/-- A vector reshaped to one row and read back as a vector is the vector. -/
theorem row_shapeCast {H : ℕ} (y : (⟨1, ![H]⟩ : Shape).Idx → EReal) (h : (⟨1, ![H]⟩ : Shape).ShapeCasts ⟨2, ![1, H]⟩) :
    row (shapeCast (⟨2, ![1, H]⟩ : Shape) y h) = vec y := by
  funext q
  show shapeCast (⟨2, ![1, H]⟩ : Shape) y h (ix2 0 q) = y (ix1 q)
  exact shapeCast_apply y h (ix2 0 q) (ix1 q) (by
    rw [Shape.rowMajor_val_two, Shape.rowMajor_val_one]; show q.val = 0 * H + q.val; omega)

/-- The rectifier, entry by entry. -/
def relu {S : Shape} (a : S.Idx → EReal) : S.Idx → EReal := fun i => max (a i) zero

/-- A dense stage reads only the row it is asked for: two inputs that agree on a row give the same row. -/
theorem lin_row {N N' K H : ℕ} (a : (⟨2, ![N, K]⟩ : Shape).Idx → EReal) (a' : (⟨2, ![N', K]⟩ : Shape).Idx → EReal)
    (W : (⟨2, ![K, H]⟩ : Shape).Idx → EReal) (b g be m v : Fin H → EReal) (r : Fin N) (r' : Fin N') (j : Fin H)
    (h : ∀ k : Fin K, a (ix2 r k) = a' (ix2 r' k)) :
    lin a W b g be m v (ix2 r j) = lin a' W b g be m v (ix2 r' j) := by
  unfold lin
  have : (∑ k : Fin K, a (ix2 r k) * W (ix2 k j)) = ∑ k : Fin K, a' (ix2 r' k) * W (ix2 k j) :=
    Finset.sum_congr rfl fun k _ => by rw [h k]
  exact congrArg (fun s => bn (s + b j) (m j) (v j) (g j) (be j)) this

/-- Two dense stages with a rectifier between them: one layer's perceptron and its outer normalisation. -/
def layer {N K H D : ℕ} (z : (⟨2, ![N, K]⟩ : Shape).Idx → EReal) (W1 : (⟨2, ![K, H]⟩ : Shape).Idx → EReal)
    (b1 g1 be1 m1 v1 : Fin H → EReal) (W2 : (⟨2, ![H, D]⟩ : Shape).Idx → EReal) (b2 g2 be2 m2 v2 : Fin D → EReal) :
    (⟨2, ![N, D]⟩ : Shape).Idx → EReal :=
  lin (relu (lin z W1 b1 g1 be1 m1 v1)) W2 b2 g2 be2 m2 v2

/-- A layer reads only the row it is asked for. -/
theorem layer_row {N N' K H D : ℕ} (z : (⟨2, ![N, K]⟩ : Shape).Idx → EReal) (z' : (⟨2, ![N', K]⟩ : Shape).Idx → EReal)
    (W1 : (⟨2, ![K, H]⟩ : Shape).Idx → EReal) (b1 g1 be1 m1 v1 : Fin H → EReal)
    (W2 : (⟨2, ![H, D]⟩ : Shape).Idx → EReal) (b2 g2 be2 m2 v2 : Fin D → EReal) (r : Fin N) (r' : Fin N') (j : Fin D)
    (h : ∀ k : Fin K, z (ix2 r k) = z' (ix2 r' k)) :
    layer z W1 b1 g1 be1 m1 v1 W2 b2 g2 be2 m2 v2 (ix2 r j) = layer z' W1 b1 g1 be1 m1 v1 W2 b2 g2 be2 m2 v2 (ix2 r' j) :=
  lin_row _ _ W2 b2 g2 be2 m2 v2 r r' j fun k => by
    show max (lin z W1 b1 g1 be1 m1 v1 (ix2 r k)) zero = max (lin z' W1 b1 g1 be1 m1 v1 (ix2 r' k)) zero
    rw [lin_row z z' W1 b1 g1 be1 m1 v1 r r' k h]

/-! ## A plain product's contraction is a sum over the middle coordinate -/

/-- For the dimension numbers of an M×K by K×N product, the sum over the contraction index is the sum over `Fin K` of
    row entry times column entry. -/
theorem plain_sum {M K N : ℕ} (l : (⟨2, ![M, K]⟩ : Shape).Idx → EReal) (r : (⟨2, ![K, N]⟩ : Shape).Idx → EReal)
    (j : (⟨2, ![M, N]⟩ : Shape).Idx) :
    (∑ k : (DotDims.plain M K N).contr.Idx, l ((DotDims.plain M K N).lhsIdx j k) * r ((DotDims.plain M K N).rhsIdx j k))
      = ∑ k : Fin K, l (ix2 (j 0) k) * r (ix2 k (j 1)) := by
  refine (Equiv.sum_comp (contrEquiv1 (DotDims.plain M K N) K rfl rfl).symm _).symm.trans (Finset.sum_congr rfl fun k _ => ?_)
  have hl : (DotDims.plain M K N).lhsIdx j ((contrEquiv1 (DotDims.plain M K N) K rfl rfl).symm k) = ix2 (j 0) k := by
    funext a; apply Fin.ext
    match a with
    | ⟨0, _⟩ => rfl
    | ⟨1, _⟩ => exact contrEquiv1_symm_val (DotDims.plain M K N) K rfl rfl k
  have hr : (DotDims.plain M K N).rhsIdx j ((contrEquiv1 (DotDims.plain M K N) K rfl rfl).symm k) = ix2 k (j 1) := by
    funext a; apply Fin.ext
    match a with
    | ⟨0, _⟩ => exact contrEquiv1_symm_val (DotDims.plain M K N) K rfl rfl k
    | ⟨1, _⟩ => rfl
  exact congrArg₂ (fun x y => l x * r y) hl hr

/-! ## The two spellings of the rectifier -/

theorem vec_relu {S : Shape} (x : FVec Ideal S .f32) :
    maximumf x (broadcast S (Scalar.ofBits .f32 0x00000000#32)) = relu x := rfl

theorem host_relu {S : Shape} (h0 : (⟨0, ![]⟩ : Shape).BroadcastsInDim S ![]) (x : FVec Ideal S .f32) :
    maximumf x (broadcastInDim S ![] h0 (constant (⟨0, ![]⟩ : Shape) .f32 0x00000000#32)) = relu x := rfl

/-! ## The vector dialect's spelling of a dense stage -/

/-- A row vector broadcast down the rows, read at (p, q), is its entry q. -/
theorem bcast_row {N H : ℕ} (hb : (⟨2, ![1, H]⟩ : Shape).Broadcasts ⟨2, ![N, H]⟩) (x : (⟨2, ![1, H]⟩ : Shape).Idx → EReal)
    (p : Fin N) (q : Fin H) : broadcastTo (⟨2, ![N, H]⟩ : Shape) x hb (ix2 p q) = x (ix2 0 q) := by
  refine broadcastTo_apply x hb (ix2 p q) (ix2 0 q) fun a => ?_
  match a with
  | ⟨0, _⟩ => simp
  | ⟨1, _⟩ =>
    show q.val = if H = 1 then 0 else q.val
    split
    · rename_i h; have := q.isLt; omega
    · rfl

theorem vec_lin {N K H : ℕ} {φa φw : FTy} (d : DotDims ⟨2, ![N, K]⟩ ⟨2, ![K, H]⟩ ⟨2, ![N, H]⟩) (hd : d = DotDims.plain N K H)
    (hb : (⟨2, ![1, H]⟩ : Shape).Broadcasts ⟨2, ![N, H]⟩)
    (a : FVec Ideal ⟨2, ![N, K]⟩ φa) (W : FVec Ideal ⟨2, ![K, H]⟩ φw) (b g be m v : FVec Ideal ⟨2, ![1, H]⟩ .f32) :
    addf (mulf (mulf (subf (addf (matmul d none a W (constant ⟨2, ![N, H]⟩ .f32 0x00000000#32)) (broadcastTo ⟨2, ![N, H]⟩ b hb))
        (broadcastTo ⟨2, ![N, H]⟩ m hb))
        (broadcastTo ⟨2, ![N, H]⟩ (rsqrt (addf v (broadcast ⟨2, ![1, H]⟩ (Scalar.ofBits .f32 0x3727C5AC#32)))) hb))
        (broadcastTo ⟨2, ![N, H]⟩ g hb)) (broadcastTo ⟨2, ![N, H]⟩ be hb)
      = lin a W (row b) (row g) (row be) (row m) (row v) := by
  subst hd
  funext i
  obtain ⟨p, q, rfl⟩ : ∃ (p : Fin N) (q : Fin H), i = ix2 p q := ⟨i 0, i 1, eq_ix2 i⟩
  simp only [addf_apply, mulf_apply, subf_apply]
  have hm : matmul (DotDims.plain N K H) none a W (constant ⟨2, ![N, H]⟩ .f32 0x00000000#32) (ix2 p q)
      = ∑ k : Fin K, a (ix2 p k) * W (ix2 k q) := by
    rw [show matmul (DotDims.plain N K H) none a W (constant ⟨2, ![N, H]⟩ .f32 0x00000000#32) (ix2 p q) = _ from
      Ideal.matmul_constant_zero_apply (DotDims.plain N K H) none a W (ix2 p q)]
    exact plain_sum a W (ix2 p q)
  rw [bcast_row hb b p q, bcast_row hb m p q, bcast_row hb g p q, bcast_row hb be p q, bcast_row hb _ p q, hm]
  rfl

/-! ## The host's spelling of a dense stage -/

/-- A vector broadcast to a one-row matrix and then down the rows, read at (p, q), is its entry q. -/
theorem bcast_two {N H : ℕ} (h1 : (⟨1, ![H]⟩ : Shape).BroadcastsInDim ⟨2, ![1, H]⟩ ![1])
    (h2 : (⟨2, ![1, H]⟩ : Shape).BroadcastsInDim ⟨2, ![N, H]⟩ ![0, 1]) (x : (⟨1, ![H]⟩ : Shape).Idx → EReal) (p : Fin N) (q : Fin H) :
    broadcastInDim (⟨2, ![N, H]⟩ : Shape) ![0, 1] h2 (broadcastInDim (⟨2, ![1, H]⟩ : Shape) ![1] h1 x) (ix2 p q) = x (ix1 q) := by
  refine (broadcastInDim_apply ![0, 1] h2 _ (ix2 p q) (ix2 0 q) fun a => ?_).trans
    (broadcastInDim_apply ![1] h1 x (ix2 0 q) (ix1 q) fun a => ?_)
  · match a with
    | ⟨0, _⟩ => simp
    | ⟨1, _⟩ =>
      show q.val = if H = 1 then 0 else q.val
      split
      · rename_i h; have := q.isLt; omega
      · rfl
  · match a with
    | ⟨0, _⟩ =>
      show q.val = if H = 1 then 0 else q.val
      split
      · rename_i h; have := q.isLt; omega
      · rfl

theorem host_lin {N K H : ℕ} {φa φw : FTy} (d : DotDims ⟨2, ![N, K]⟩ ⟨2, ![K, H]⟩ ⟨2, ![N, H]⟩) (hd : d = DotDims.plain N K H)
    (h0 : (⟨0, ![]⟩ : Shape).BroadcastsInDim ⟨1, ![H]⟩ ![])
    (h1 : (⟨1, ![H]⟩ : Shape).BroadcastsInDim ⟨2, ![1, H]⟩ ![1])
    (h2 : (⟨2, ![1, H]⟩ : Shape).BroadcastsInDim ⟨2, ![N, H]⟩ ![0, 1])
    (a : FVec Ideal ⟨2, ![N, K]⟩ φa) (W : FVec Ideal ⟨2, ![K, H]⟩ φw) (b g be m v : FVec Ideal ⟨1, ![H]⟩ .f32) :
    addf (mulf (mulf (subf (addf (Host.dotGeneral d none a W)
          (broadcastInDim (⟨2, ![N, H]⟩ : Shape) ![0, 1] h2 (broadcastInDim (⟨2, ![1, H]⟩ : Shape) ![1] h1 b)))
          (broadcastInDim (⟨2, ![N, H]⟩ : Shape) ![0, 1] h2 (broadcastInDim (⟨2, ![1, H]⟩ : Shape) ![1] h1 m)))
          (broadcastInDim (⟨2, ![N, H]⟩ : Shape) ![0, 1] h2 (broadcastInDim (⟨2, ![1, H]⟩ : Shape) ![1] h1
            (Host.rsqrt (addf v (broadcastInDim (⟨1, ![H]⟩ : Shape) ![] h0 (constant (⟨0, ![]⟩ : Shape) .f32 0x3727C5AC#32)))))))
          (broadcastInDim (⟨2, ![N, H]⟩ : Shape) ![0, 1] h2 (broadcastInDim (⟨2, ![1, H]⟩ : Shape) ![1] h1 g)))
          (broadcastInDim (⟨2, ![N, H]⟩ : Shape) ![0, 1] h2 (broadcastInDim (⟨2, ![1, H]⟩ : Shape) ![1] h1 be))
      = lin a W (vec b) (vec g) (vec be) (vec m) (vec v) := by
  subst hd
  funext i
  obtain ⟨p, q, rfl⟩ : ∃ (p : Fin N) (q : Fin H), i = ix2 p q := ⟨i 0, i 1, eq_ix2 i⟩
  simp only [addf_apply, mulf_apply, subf_apply]
  have hm : Host.dotGeneral (DotDims.plain N K H) none a W (ix2 p q) = ∑ k : Fin K, a (ix2 p k) * W (ix2 k q) := by
    rw [show Host.dotGeneral (DotDims.plain N K H) none a W (ix2 p q) = _ from
      Ideal.dotGeneral_apply (DotDims.plain N K H) none .single a W (ix2 p q)]
    exact plain_sum a W (ix2 p q)
  rw [bcast_two h1 h2 b p q, bcast_two h1 h2 m p q, bcast_two h1 h2 g p q, bcast_two h1 h2 be p q, bcast_two h1 h2 _ p q, hm]
  rfl

end Cert.Mlp

end
-- ==== Proof.LibGatedCell.lean ====
/-
  A gated recurrent cell on the extended reals, index by index, over PLAIN coordinates (Fin):

      z = tanh (x · Wx + bx)                     the candidate state
      u = logistic (h · Wr + z · Uz + bu)        the update gate
      h' = u * h + (1 - u) * z                   a convex combination of the old state and the candidate

  with the weight matrices laid out contraction axis first ([K, H] and [H, H]).  Every output row depends on the
  same row of h and x only, so a block of rows and the whole array are the same function of their rows (cell_row).
  Two spellings a program may give the cell are read onto it: the vector dialect's, which merges the two H-wide
  contractions of the gate into ONE of width H + H — the operands [h, z] side by side against the weights [Wr ; Uz]
  stacked —, and the host's, which keeps them apart and writes the logistic function out as 1 / (1 + exp (-s)).
  The merged contraction is the sum of the two because a finite sum over Fin (H + H) splits at H
  (Fin.sum_univ_add): commutativity and associativity of + on the extended reals, nothing about finiteness.
-/
import Idealize.ShloMosaic.PureOps.Ideal
import Idealize.ShloMosaic.PureOps.Ideal.Laws
import Idealize.ShloMosaic.Lib.ValueIdx
import Idealize.ShloMosaic.Lib.Pipeline.Value

noncomputable section

open Idealize.ShloMosaic Idealize.ShloMosaic.ValueIdx

namespace Cert.GatedCell

/-! ## The single-precision word 1.0 -/

/-- The word 0x3F800000 denotes the extended real 1. -/
theorem ofBits_one : Ideal.ofBits .f32 0x3F800000#32 = 1 := by
  simp [Ideal.ofBits, Ideal.ieee, -EReal.coe_mul]; norm_num

/-! ## The cell -/

/-- The candidate state: row i 0 of x against column i 1 of Wx, plus the bias, through tanh. -/
def cand {N K H : ℕ} (x : (⟨2, ![N, K]⟩ : Shape).Idx → EReal) (Wx : (⟨2, ![K, H]⟩ : Shape).Idx → EReal)
    (bx : Fin H → EReal) : (⟨2, ![N, H]⟩ : Shape).Idx → EReal := fun i =>
  Ideal.tanh ((∑ k : Fin K, x (ix2 (i 0) k) * Wx (ix2 k (i 1))) + bx (i 1))

/-- The update gate of a state h and a candidate z. -/
def gate {N H : ℕ} (h z : (⟨2, ![N, H]⟩ : Shape).Idx → EReal) (Wr Uz : (⟨2, ![H, H]⟩ : Shape).Idx → EReal)
    (bu : Fin H → EReal) : (⟨2, ![N, H]⟩ : Shape).Idx → EReal := fun i =>
  Ideal.logistic (((∑ k : Fin H, h (ix2 (i 0) k) * Wr (ix2 k (i 1))) + ∑ k : Fin H, z (ix2 (i 0) k) * Uz (ix2 k (i 1)))
    + bu (i 1))

/-- The new state. -/
def cell {N K H : ℕ} (h : (⟨2, ![N, H]⟩ : Shape).Idx → EReal) (x : (⟨2, ![N, K]⟩ : Shape).Idx → EReal)
    (Wx : (⟨2, ![K, H]⟩ : Shape).Idx → EReal) (bx : Fin H → EReal) (Wr Uz : (⟨2, ![H, H]⟩ : Shape).Idx → EReal)
    (bu : Fin H → EReal) : (⟨2, ![N, H]⟩ : Shape).Idx → EReal := fun i =>
  gate h (cand x Wx bx) Wr Uz bu i * h i + (1 - gate h (cand x Wx bx) Wr Uz bu i) * cand x Wx bx i

/-! ## Row locality -/

/-- The candidate reads only the row it is asked for. -/
theorem cand_row {N N' K H : ℕ} (x : (⟨2, ![N, K]⟩ : Shape).Idx → EReal) (x' : (⟨2, ![N', K]⟩ : Shape).Idx → EReal)
    (Wx : (⟨2, ![K, H]⟩ : Shape).Idx → EReal) (bx : Fin H → EReal) (r : Fin N) (r' : Fin N') (j : Fin H)
    (hx : ∀ k : Fin K, x (ix2 r k) = x' (ix2 r' k)) :
    cand x Wx bx (ix2 r j) = cand x' Wx bx (ix2 r' j) := by
  unfold cand
  have : (∑ k : Fin K, x (ix2 r k) * Wx (ix2 k j)) = ∑ k : Fin K, x' (ix2 r' k) * Wx (ix2 k j) :=
    Finset.sum_congr rfl fun k _ => by rw [hx k]
  exact congrArg (fun s => Ideal.tanh (s + bx j)) this

/-- The gate reads only the row it is asked for, of the state and of the candidate. -/
theorem gate_row {N N' H : ℕ} (h z : (⟨2, ![N, H]⟩ : Shape).Idx → EReal) (h' z' : (⟨2, ![N', H]⟩ : Shape).Idx → EReal)
    (Wr Uz : (⟨2, ![H, H]⟩ : Shape).Idx → EReal) (bu : Fin H → EReal) (r : Fin N) (r' : Fin N') (j : Fin H)
    (hh : ∀ k : Fin H, h (ix2 r k) = h' (ix2 r' k)) (hz : ∀ k : Fin H, z (ix2 r k) = z' (ix2 r' k)) :
    gate h z Wr Uz bu (ix2 r j) = gate h' z' Wr Uz bu (ix2 r' j) := by
  unfold gate
  have e1 : (∑ k : Fin H, h (ix2 r k) * Wr (ix2 k j)) = ∑ k : Fin H, h' (ix2 r' k) * Wr (ix2 k j) :=
    Finset.sum_congr rfl fun k _ => by rw [hh k]
  have e2 : (∑ k : Fin H, z (ix2 r k) * Uz (ix2 k j)) = ∑ k : Fin H, z' (ix2 r' k) * Uz (ix2 k j) :=
    Finset.sum_congr rfl fun k _ => by rw [hz k]
  show Ideal.logistic (((∑ k : Fin H, h (ix2 r k) * Wr (ix2 k j)) + ∑ k : Fin H, z (ix2 r k) * Uz (ix2 k j)) + bu j)
    = Ideal.logistic (((∑ k : Fin H, h' (ix2 r' k) * Wr (ix2 k j)) + ∑ k : Fin H, z' (ix2 r' k) * Uz (ix2 k j)) + bu j)
  rw [e1, e2]

/-- The cell reads only the row it is asked for: two states and two inputs that agree on a row give the same row. -/
theorem cell_row {N N' K H : ℕ} (h : (⟨2, ![N, H]⟩ : Shape).Idx → EReal) (h' : (⟨2, ![N', H]⟩ : Shape).Idx → EReal)
    (x : (⟨2, ![N, K]⟩ : Shape).Idx → EReal) (x' : (⟨2, ![N', K]⟩ : Shape).Idx → EReal)
    (Wx : (⟨2, ![K, H]⟩ : Shape).Idx → EReal) (bx : Fin H → EReal) (Wr Uz : (⟨2, ![H, H]⟩ : Shape).Idx → EReal)
    (bu : Fin H → EReal) (r : Fin N) (r' : Fin N') (j : Fin H)
    (hh : ∀ k : Fin H, h (ix2 r k) = h' (ix2 r' k)) (hx : ∀ k : Fin K, x (ix2 r k) = x' (ix2 r' k)) :
    cell h x Wx bx Wr Uz bu (ix2 r j) = cell h' x' Wx bx Wr Uz bu (ix2 r' j) := by
  have hc : ∀ k : Fin H, cand x Wx bx (ix2 r k) = cand x' Wx bx (ix2 r' k) := fun k => cand_row x x' Wx bx r r' k hx
  have hg := gate_row h (cand x Wx bx) h' (cand x' Wx bx) Wr Uz bu r r' j hh hc
  show gate h (cand x Wx bx) Wr Uz bu (ix2 r j) * h (ix2 r j)
      + (1 - gate h (cand x Wx bx) Wr Uz bu (ix2 r j)) * cand x Wx bx (ix2 r j)
    = gate h' (cand x' Wx bx) Wr Uz bu (ix2 r' j) * h' (ix2 r' j)
      + (1 - gate h' (cand x' Wx bx) Wr Uz bu (ix2 r' j)) * cand x' Wx bx (ix2 r' j)
  rw [hg, hh j, hc j]

/-! ## A contraction over two operands side by side against two stacked weight matrices -/

/-- A sum over Fin (H + H) of products whose factors are given piecewise — below H and from H on — is the sum of
    the two pieces' sums. -/
theorem sum_stacked {H : ℕ} (a w : Fin (H + H) → EReal) (a₁ a₂ w₁ w₂ : Fin H → EReal)
    (ha₁ : ∀ k : Fin H, a (Fin.castAdd H k) = a₁ k) (ha₂ : ∀ k : Fin H, a (Fin.natAdd H k) = a₂ k)
    (hw₁ : ∀ k : Fin H, w (Fin.castAdd H k) = w₁ k) (hw₂ : ∀ k : Fin H, w (Fin.natAdd H k) = w₂ k) :
    (∑ k : Fin (H + H), a k * w k) = (∑ k : Fin H, a₁ k * w₁ k) + ∑ k : Fin H, a₂ k * w₂ k := by
  rw [Fin.sum_univ_add]
  exact congrArg₂ (· + ·) (Finset.sum_congr rfl fun k _ => by rw [ha₁ k, hw₁ k])
    (Finset.sum_congr rfl fun k _ => by rw [ha₂ k, hw₂ k])

end Cert.GatedCell

end
-- ==== Proof.LibGatedCellSpell.lean ====
/-
  The two spellings of the gated cell (the cell itself: cell, cand, gate), read onto it at the extended reals.

  The vector dialect's: the candidate is a matrix-unit product into a zero accumulator plus a one-row bias broadcast down
  the rows, through tanh; the gate is ONE product of width H + H — the state and the candidate side by side (a
  concatenation along the columns) against a weight matrix whose upper H rows are Wr and lower H rows are Uz —
  plus a bias, through the logistic function; the result is  u * h + (1.0 - u) * z .  The changes of float format on the way
  (to the narrow format before each product) are the identity on the extended reals.

  The host's: two separate H-wide dot products added, a bias broadcast in two steps, the logistic function written out as
  1.0 / (1.0 + exp (- s)) , which IS the logistic function's definition on the extended reals once the word 1.0 is read
  as the number 1.
-/
import Idealize.ShloMosaic.PureOps.Ideal
import Idealize.ShloMosaic.PureOps.Ideal.Laws
import Idealize.ShloMosaic.Lib.ValueIdx
import Idealize.ShloMosaic.Lib.Pipeline.Value
import proofs.«428597_j2851858285198_3_alg».proof.Proof.LibMlp
import proofs.«428597_j2851858285198_3_alg».proof.Proof.LibGatedCell

noncomputable section

open Idealize.ShloMosaic Idealize.ShloMosaic.ValueIdx

namespace Cert.GatedCell

open Cert.Mlp (plain_sum bcast_row bcast_two row vec)

/-! ## Two arrays side by side, and one on top of the other, read at an index -/

section Pieces
variable {α : Type}

/-- Left of the seam, two arrays side by side read the first. -/
theorem beside_left {N H : ℕ} (hc : Shape.Concatenates [(⟨2, ![N, H]⟩ : Shape), ⟨2, ![N, H]⟩] ⟨2, ![N, H + H]⟩ 1)
    (a b : (⟨2, ![N, H]⟩ : Shape).Idx → α) (p : Fin N) (k : Fin H) :
    concatenate (⟨2, ![N, H + H]⟩ : Shape) 1 [⟨⟨2, ![N, H]⟩, a⟩, ⟨⟨2, ![N, H]⟩, b⟩] hc (ix2 p (Fin.castAdd H k)) = a (ix2 p k) :=
  concatenate_pair_apply_left 1 a b hc (ix2 p (Fin.castAdd H k)) rfl (ix2 p k)
    fun c => match c with | ⟨0, _⟩ => rfl | ⟨1, _⟩ => rfl

/-- Right of the seam they read the second, the column counted from the seam. -/
theorem beside_right {N H : ℕ} (hc : Shape.Concatenates [(⟨2, ![N, H]⟩ : Shape), ⟨2, ![N, H]⟩] ⟨2, ![N, H + H]⟩ 1)
    (a b : (⟨2, ![N, H]⟩ : Shape).Idx → α) (p : Fin N) (k : Fin H) :
    concatenate (⟨2, ![N, H + H]⟩ : Shape) 1 [⟨⟨2, ![N, H]⟩, a⟩, ⟨⟨2, ![N, H]⟩, b⟩] hc (ix2 p (Fin.natAdd H k)) = b (ix2 p k) :=
  concatenate_pair_apply_right 1 a b hc (ix2 p (Fin.natAdd H k)) rfl rfl (ix2 p k)
    (fun c hne => match c, hne with | ⟨0, _⟩, _ => rfl | ⟨1, _⟩, h => absurd rfl h)
    (by show k.val + H = H + k.val; omega)

/-- Above the seam, two matrices one on top of the other read the upper. -/
theorem stacked_upper {H : ℕ} (hc : Shape.Concatenates [(⟨2, ![H, H]⟩ : Shape), ⟨2, ![H, H]⟩] ⟨2, ![H + H, H]⟩ 0)
    (A B : (⟨2, ![H, H]⟩ : Shape).Idx → α) (k q : Fin H) :
    concatenate (⟨2, ![H + H, H]⟩ : Shape) 0 [⟨⟨2, ![H, H]⟩, A⟩, ⟨⟨2, ![H, H]⟩, B⟩] hc (ix2 (Fin.castAdd H k) q) = A (ix2 k q) :=
  concatenate_pair_apply_left 0 A B hc (ix2 (Fin.castAdd H k) q) rfl (ix2 k q)
    fun c => match c with | ⟨0, _⟩ => rfl | ⟨1, _⟩ => rfl

/-- Below the seam they read the lower, the row counted from the seam. -/
theorem stacked_lower {H : ℕ} (hc : Shape.Concatenates [(⟨2, ![H, H]⟩ : Shape), ⟨2, ![H, H]⟩] ⟨2, ![H + H, H]⟩ 0)
    (A B : (⟨2, ![H, H]⟩ : Shape).Idx → α) (k q : Fin H) :
    concatenate (⟨2, ![H + H, H]⟩ : Shape) 0 [⟨⟨2, ![H, H]⟩, A⟩, ⟨⟨2, ![H, H]⟩, B⟩] hc (ix2 (Fin.natAdd H k) q) = B (ix2 k q) :=
  concatenate_pair_apply_right 0 A B hc (ix2 (Fin.natAdd H k) q) rfl rfl (ix2 k q)
    (fun c hne => match c, hne with | ⟨0, _⟩, h => absurd rfl h | ⟨1, _⟩, _ => rfl)
    (by show k.val + H = H + k.val; omega)

end Pieces

/-! ## The vector dialect's spelling -/

/-- The candidate as the vector dialect spells it. -/
def vcand {N K H : ℕ} (d : DotDims ⟨2, ![N, K]⟩ ⟨2, ![K, H]⟩ ⟨2, ![N, H]⟩)
    (hb : (⟨2, ![1, H]⟩ : Shape).Broadcasts ⟨2, ![N, H]⟩)
    (x : FVec Ideal ⟨2, ![N, K]⟩ .bf16) (Wx : FVec Ideal ⟨2, ![K, H]⟩ .bf16) (bx : FVec Ideal ⟨2, ![1, H]⟩ .f32) :
    FVec Ideal ⟨2, ![N, H]⟩ .f32 :=
  tanh (addf (matmul d none x Wx (constant ⟨2, ![N, H]⟩ .f32 0x00000000#32)) (broadcastTo ⟨2, ![N, H]⟩ bx hb))

/-- The gate as the vector dialect spells it: one product over the state and the candidate side by side. -/
def vgate {N H : ℕ} (d : DotDims ⟨2, ![N, H + H]⟩ ⟨2, ![H + H, H]⟩ ⟨2, ![N, H]⟩)
    (hb : (⟨2, ![1, H]⟩ : Shape).Broadcasts ⟨2, ![N, H]⟩)
    (hc : Shape.Concatenates [(⟨2, ![N, H]⟩ : Shape), ⟨2, ![N, H]⟩] ⟨2, ![N, H + H]⟩ 1)
    (ht : FTy.bits .bf16 < FTy.bits .f32)
    (h z : FVec Ideal ⟨2, ![N, H]⟩ .f32) (W : FVec Ideal ⟨2, ![H + H, H]⟩ .bf16) (bu : FVec Ideal ⟨2, ![1, H]⟩ .f32) :
    FVec Ideal ⟨2, ![N, H]⟩ .f32 :=
  logistic (addf (matmul d none
      (concatenate (⟨2, ![N, H + H]⟩ : Shape) 1 [⟨⟨2, ![N, H]⟩, truncf .bf16 h ht⟩, ⟨⟨2, ![N, H]⟩, truncf .bf16 z ht⟩] hc)
      W (constant ⟨2, ![N, H]⟩ .f32 0x00000000#32)) (broadcastTo ⟨2, ![N, H]⟩ bu hb))

/-- The vector dialect's candidate, entry by entry, is the cell's. -/
theorem vcand_apply {N K H : ℕ} (d : DotDims ⟨2, ![N, K]⟩ ⟨2, ![K, H]⟩ ⟨2, ![N, H]⟩) (hd : d = DotDims.plain N K H)
    (hb : (⟨2, ![1, H]⟩ : Shape).Broadcasts ⟨2, ![N, H]⟩)
    (x : FVec Ideal ⟨2, ![N, K]⟩ .bf16) (Wx : FVec Ideal ⟨2, ![K, H]⟩ .bf16) (bx : FVec Ideal ⟨2, ![1, H]⟩ .f32)
    (p : Fin N) (q : Fin H) : vcand d hb x Wx bx (ix2 p q) = cand x Wx (row bx) (ix2 p q) := by
  subst hd
  have hm : matmul (DotDims.plain N K H) none x Wx (constant ⟨2, ![N, H]⟩ .f32 0x00000000#32) (ix2 p q)
      = ∑ k : Fin K, x (ix2 p k) * Wx (ix2 k q) :=
    (Ideal.matmul_constant_zero_apply (DotDims.plain N K H) none x Wx (ix2 p q)).trans (plain_sum x Wx (ix2 p q))
  show Ideal.tanh (matmul (DotDims.plain N K H) none x Wx (constant ⟨2, ![N, H]⟩ .f32 0x00000000#32) (ix2 p q)
      + broadcastTo ⟨2, ![N, H]⟩ bx hb (ix2 p q)) = Ideal.tanh ((∑ k : Fin K, x (ix2 p k) * Wx (ix2 k q)) + bx (ix2 0 q))
  rw [hm, bcast_row hb bx p q]

/-- The vector dialect's gate, entry by entry, is the cell's: the merged product splits at the seam. -/
theorem vgate_apply {N H : ℕ} (d : DotDims ⟨2, ![N, H + H]⟩ ⟨2, ![H + H, H]⟩ ⟨2, ![N, H]⟩) (hd : d = DotDims.plain N (H + H) H)
    (hb : (⟨2, ![1, H]⟩ : Shape).Broadcasts ⟨2, ![N, H]⟩)
    (hc : Shape.Concatenates [(⟨2, ![N, H]⟩ : Shape), ⟨2, ![N, H]⟩] ⟨2, ![N, H + H]⟩ 1)
    (ht : FTy.bits .bf16 < FTy.bits .f32)
    (h z : FVec Ideal ⟨2, ![N, H]⟩ .f32) (W : FVec Ideal ⟨2, ![H + H, H]⟩ .bf16) (bu : FVec Ideal ⟨2, ![1, H]⟩ .f32)
    (Wr Uz : (⟨2, ![H, H]⟩ : Shape).Idx → EReal)
    (hWr : ∀ k q : Fin H, W (ix2 (Fin.castAdd H k) q) = Wr (ix2 k q))
    (hUz : ∀ k q : Fin H, W (ix2 (Fin.natAdd H k) q) = Uz (ix2 k q))
    (p : Fin N) (q : Fin H) : vgate d hb hc ht h z W bu (ix2 p q) = gate h z Wr Uz (row bu) (ix2 p q) := by
  subst hd
  have hm : matmul (DotDims.plain N (H + H) H) none
        (concatenate (⟨2, ![N, H + H]⟩ : Shape) 1 [⟨⟨2, ![N, H]⟩, truncf .bf16 h ht⟩, ⟨⟨2, ![N, H]⟩, truncf .bf16 z ht⟩] hc)
        W (constant ⟨2, ![N, H]⟩ .f32 0x00000000#32) (ix2 p q)
      = (∑ k : Fin H, h (ix2 p k) * Wr (ix2 k q)) + ∑ k : Fin H, z (ix2 p k) * Uz (ix2 k q) :=
    ((Ideal.matmul_constant_zero_apply (DotDims.plain N (H + H) H) none _ W (ix2 p q)).trans
      (plain_sum _ W (ix2 p q))).trans
      (sum_stacked _ _ (fun k => h (ix2 p k)) (fun k => z (ix2 p k)) (fun k => Wr (ix2 k q)) (fun k => Uz (ix2 k q))
        (fun k => beside_left hc _ _ p k) (fun k => beside_right hc _ _ p k) (fun k => hWr k q) (fun k => hUz k q))
  show Ideal.logistic (matmul (DotDims.plain N (H + H) H) none
        (concatenate (⟨2, ![N, H + H]⟩ : Shape) 1 [⟨⟨2, ![N, H]⟩, truncf .bf16 h ht⟩, ⟨⟨2, ![N, H]⟩, truncf .bf16 z ht⟩] hc)
        W (constant ⟨2, ![N, H]⟩ .f32 0x00000000#32) (ix2 p q) + broadcastTo ⟨2, ![N, H]⟩ bu hb (ix2 p q))
    = Ideal.logistic (((∑ k : Fin H, h (ix2 p k) * Wr (ix2 k q)) + ∑ k : Fin H, z (ix2 p k) * Uz (ix2 k q)) + bu (ix2 0 q))
  rw [hm, bcast_row hb bu p q]

/-- The vector dialect's cell is the cell. -/
theorem vec_cell {N K H : ℕ} (d1 : DotDims ⟨2, ![N, K]⟩ ⟨2, ![K, H]⟩ ⟨2, ![N, H]⟩) (hd1 : d1 = DotDims.plain N K H)
    (d2 : DotDims ⟨2, ![N, H + H]⟩ ⟨2, ![H + H, H]⟩ ⟨2, ![N, H]⟩) (hd2 : d2 = DotDims.plain N (H + H) H)
    (hb : (⟨2, ![1, H]⟩ : Shape).Broadcasts ⟨2, ![N, H]⟩)
    (hc : Shape.Concatenates [(⟨2, ![N, H]⟩ : Shape), ⟨2, ![N, H]⟩] ⟨2, ![N, H + H]⟩ 1)
    (ht : FTy.bits .bf16 < FTy.bits .f32)
    (h : FVec Ideal ⟨2, ![N, H]⟩ .f32) (x : FVec Ideal ⟨2, ![N, K]⟩ .bf16) (Wx : FVec Ideal ⟨2, ![K, H]⟩ .bf16)
    (bx : FVec Ideal ⟨2, ![1, H]⟩ .f32) (W : FVec Ideal ⟨2, ![H + H, H]⟩ .bf16) (bu : FVec Ideal ⟨2, ![1, H]⟩ .f32)
    (Wr Uz : (⟨2, ![H, H]⟩ : Shape).Idx → EReal)
    (hWr : ∀ k q : Fin H, W (ix2 (Fin.castAdd H k) q) = Wr (ix2 k q))
    (hUz : ∀ k q : Fin H, W (ix2 (Fin.natAdd H k) q) = Uz (ix2 k q)) :
    addf (mulf (vgate d2 hb hc ht h (vcand d1 hb x Wx bx) W bu) h)
        (mulf (subf (broadcast ⟨2, ![N, H]⟩ (Scalar.ofBits .f32 0x3F800000#32)) (vgate d2 hb hc ht h (vcand d1 hb x Wx bx) W bu))
          (vcand d1 hb x Wx bx))
      = cell h x Wx (row bx) Wr Uz (row bu) := by
  funext i
  obtain ⟨p, q, rfl⟩ : ∃ (p : Fin N) (q : Fin H), i = ix2 p q := ⟨i 0, i 1, eq_ix2 i⟩
  have hu : vgate d2 hb hc ht h (vcand d1 hb x Wx bx) W bu (ix2 p q) = gate h (cand x Wx (row bx)) Wr Uz (row bu) (ix2 p q) :=
    (vgate_apply d2 hd2 hb hc ht h (vcand d1 hb x Wx bx) W bu Wr Uz hWr hUz p q).trans
      (gate_row h (vcand d1 hb x Wx bx) h (cand x Wx (row bx)) Wr Uz (row bu) p p q (fun _ => rfl)
        (fun k => vcand_apply d1 hd1 hb x Wx bx p k))
  show vgate d2 hb hc ht h (vcand d1 hb x Wx bx) W bu (ix2 p q) * h (ix2 p q)
      + (Ideal.ofBits .f32 0x3F800000#32 - vgate d2 hb hc ht h (vcand d1 hb x Wx bx) W bu (ix2 p q)) * vcand d1 hb x Wx bx (ix2 p q)
    = gate h (cand x Wx (row bx)) Wr Uz (row bu) (ix2 p q) * h (ix2 p q)
      + (1 - gate h (cand x Wx (row bx)) Wr Uz (row bu) (ix2 p q)) * cand x Wx (row bx) (ix2 p q)
  rw [hu, vcand_apply d1 hd1 hb x Wx bx p q, ofBits_one]

/-! ## The host's spelling -/

/-- The candidate as the host spells it. -/
def hcand {N K H : ℕ} (d : DotDims ⟨2, ![N, K]⟩ ⟨2, ![K, H]⟩ ⟨2, ![N, H]⟩)
    (h1 : (⟨1, ![H]⟩ : Shape).BroadcastsInDim ⟨2, ![1, H]⟩ ![1])
    (h2 : (⟨2, ![1, H]⟩ : Shape).BroadcastsInDim ⟨2, ![N, H]⟩ ![0, 1])
    (x : FVec Ideal ⟨2, ![N, K]⟩ .f32) (Wx : FVec Ideal ⟨2, ![K, H]⟩ .f32) (bx : FVec Ideal ⟨1, ![H]⟩ .f32) :
    FVec Ideal ⟨2, ![N, H]⟩ .f32 :=
  Host.tanh (addf (Host.dotGeneral d none x Wx)
    (broadcastInDim (⟨2, ![N, H]⟩ : Shape) ![0, 1] h2 (broadcastInDim (⟨2, ![1, H]⟩ : Shape) ![1] h1 bx)))

/-- The gate as the host spells it: two products added, and the logistic function written out. -/
def hgate {N H : ℕ} (d : DotDims ⟨2, ![N, H]⟩ ⟨2, ![H, H]⟩ ⟨2, ![N, H]⟩)
    (h0 : (⟨0, ![]⟩ : Shape).BroadcastsInDim ⟨2, ![N, H]⟩ ![])
    (h1 : (⟨1, ![H]⟩ : Shape).BroadcastsInDim ⟨2, ![1, H]⟩ ![1])
    (h2 : (⟨2, ![1, H]⟩ : Shape).BroadcastsInDim ⟨2, ![N, H]⟩ ![0, 1])
    (h z : FVec Ideal ⟨2, ![N, H]⟩ .f32) (Wr Uz : FVec Ideal ⟨2, ![H, H]⟩ .f32) (bu : FVec Ideal ⟨1, ![H]⟩ .f32) :
    FVec Ideal ⟨2, ![N, H]⟩ .f32 :=
  Host.divf (broadcastInDim (⟨2, ![N, H]⟩ : Shape) ![] h0 (constant (⟨0, ![]⟩ : Shape) .f32 0x3F800000#32))
    (addf (broadcastInDim (⟨2, ![N, H]⟩ : Shape) ![] h0 (constant (⟨0, ![]⟩ : Shape) .f32 0x3F800000#32))
      (Host.exp (Host.negf (addf (addf (Host.dotGeneral d none h Wr) (Host.dotGeneral d none z Uz))
        (broadcastInDim (⟨2, ![N, H]⟩ : Shape) ![0, 1] h2 (broadcastInDim (⟨2, ![1, H]⟩ : Shape) ![1] h1 bu))))))

/-- The host's candidate, entry by entry, is the cell's. -/
theorem hcand_apply {N K H : ℕ} (d : DotDims ⟨2, ![N, K]⟩ ⟨2, ![K, H]⟩ ⟨2, ![N, H]⟩) (hd : d = DotDims.plain N K H)
    (h1 : (⟨1, ![H]⟩ : Shape).BroadcastsInDim ⟨2, ![1, H]⟩ ![1])
    (h2 : (⟨2, ![1, H]⟩ : Shape).BroadcastsInDim ⟨2, ![N, H]⟩ ![0, 1])
    (x : FVec Ideal ⟨2, ![N, K]⟩ .f32) (Wx : FVec Ideal ⟨2, ![K, H]⟩ .f32) (bx : FVec Ideal ⟨1, ![H]⟩ .f32)
    (p : Fin N) (q : Fin H) : hcand d h1 h2 x Wx bx (ix2 p q) = cand x Wx (vec bx) (ix2 p q) := by
  subst hd
  have hm : Host.dotGeneral (DotDims.plain N K H) none x Wx (ix2 p q) = ∑ k : Fin K, x (ix2 p k) * Wx (ix2 k q) :=
    (Ideal.dotGeneral_apply (DotDims.plain N K H) none .single x Wx (ix2 p q)).trans (plain_sum x Wx (ix2 p q))
  show Ideal.tanh (Host.dotGeneral (DotDims.plain N K H) none x Wx (ix2 p q)
      + broadcastInDim (⟨2, ![N, H]⟩ : Shape) ![0, 1] h2 (broadcastInDim (⟨2, ![1, H]⟩ : Shape) ![1] h1 bx) (ix2 p q))
    = Ideal.tanh ((∑ k : Fin K, x (ix2 p k) * Wx (ix2 k q)) + bx (ix1 q))
  rw [hm, bcast_two h1 h2 bx p q]

/-- The host's gate, entry by entry, is the cell's: 1.0 / (1.0 + exp (- s)) is the logistic function of s. -/
theorem hgate_apply {N H : ℕ} (d : DotDims ⟨2, ![N, H]⟩ ⟨2, ![H, H]⟩ ⟨2, ![N, H]⟩) (hd : d = DotDims.plain N H H)
    (h0 : (⟨0, ![]⟩ : Shape).BroadcastsInDim ⟨2, ![N, H]⟩ ![])
    (h1 : (⟨1, ![H]⟩ : Shape).BroadcastsInDim ⟨2, ![1, H]⟩ ![1])
    (h2 : (⟨2, ![1, H]⟩ : Shape).BroadcastsInDim ⟨2, ![N, H]⟩ ![0, 1])
    (h z : FVec Ideal ⟨2, ![N, H]⟩ .f32) (Wr Uz : FVec Ideal ⟨2, ![H, H]⟩ .f32) (bu : FVec Ideal ⟨1, ![H]⟩ .f32)
    (p : Fin N) (q : Fin H) : hgate d h0 h1 h2 h z Wr Uz bu (ix2 p q) = gate h z Wr Uz (vec bu) (ix2 p q) := by
  subst hd
  have hm1 : Host.dotGeneral (DotDims.plain N H H) none h Wr (ix2 p q) = ∑ k : Fin H, h (ix2 p k) * Wr (ix2 k q) :=
    (Ideal.dotGeneral_apply (DotDims.plain N H H) none .single h Wr (ix2 p q)).trans (plain_sum h Wr (ix2 p q))
  have hm2 : Host.dotGeneral (DotDims.plain N H H) none z Uz (ix2 p q) = ∑ k : Fin H, z (ix2 p k) * Uz (ix2 k q) :=
    (Ideal.dotGeneral_apply (DotDims.plain N H H) none .single z Uz (ix2 p q)).trans (plain_sum z Uz (ix2 p q))
  show Ideal.div (Ideal.ofBits .f32 0x3F800000#32) (Ideal.ofBits .f32 0x3F800000#32
      + Ideal.exp (-((Host.dotGeneral (DotDims.plain N H H) none h Wr (ix2 p q) + Host.dotGeneral (DotDims.plain N H H) none z Uz (ix2 p q))
        + broadcastInDim (⟨2, ![N, H]⟩ : Shape) ![0, 1] h2 (broadcastInDim (⟨2, ![1, H]⟩ : Shape) ![1] h1 bu) (ix2 p q))))
    = Ideal.div 1 (1 + Ideal.exp (-(((∑ k : Fin H, h (ix2 p k) * Wr (ix2 k q)) + ∑ k : Fin H, z (ix2 p k) * Uz (ix2 k q)) + bu (ix1 q))))
  rw [hm1, hm2, bcast_two h1 h2 bu p q, ofBits_one]

/-- The host's cell is the cell. -/
theorem host_cell {N K H : ℕ} (d1 : DotDims ⟨2, ![N, K]⟩ ⟨2, ![K, H]⟩ ⟨2, ![N, H]⟩) (hd1 : d1 = DotDims.plain N K H)
    (d2 : DotDims ⟨2, ![N, H]⟩ ⟨2, ![H, H]⟩ ⟨2, ![N, H]⟩) (hd2 : d2 = DotDims.plain N H H)
    (h0 : (⟨0, ![]⟩ : Shape).BroadcastsInDim ⟨2, ![N, H]⟩ ![])
    (h1 : (⟨1, ![H]⟩ : Shape).BroadcastsInDim ⟨2, ![1, H]⟩ ![1])
    (h2 : (⟨2, ![1, H]⟩ : Shape).BroadcastsInDim ⟨2, ![N, H]⟩ ![0, 1])
    (h : FVec Ideal ⟨2, ![N, H]⟩ .f32) (x : FVec Ideal ⟨2, ![N, K]⟩ .f32) (Wx : FVec Ideal ⟨2, ![K, H]⟩ .f32)
    (bx : FVec Ideal ⟨1, ![H]⟩ .f32) (Wr Uz : FVec Ideal ⟨2, ![H, H]⟩ .f32) (bu : FVec Ideal ⟨1, ![H]⟩ .f32) :
    addf (mulf (hgate d2 h0 h1 h2 h (hcand d1 h1 h2 x Wx bx) Wr Uz bu) h)
        (mulf (subf (broadcastInDim (⟨2, ![N, H]⟩ : Shape) ![] h0 (constant (⟨0, ![]⟩ : Shape) .f32 0x3F800000#32))
            (hgate d2 h0 h1 h2 h (hcand d1 h1 h2 x Wx bx) Wr Uz bu))
          (hcand d1 h1 h2 x Wx bx))
      = cell h x Wx (vec bx) Wr Uz (vec bu) := by
  funext i
  obtain ⟨p, q, rfl⟩ : ∃ (p : Fin N) (q : Fin H), i = ix2 p q := ⟨i 0, i 1, eq_ix2 i⟩
  have hu : hgate d2 h0 h1 h2 h (hcand d1 h1 h2 x Wx bx) Wr Uz bu (ix2 p q) = gate h (cand x Wx (vec bx)) Wr Uz (vec bu) (ix2 p q) :=
    (hgate_apply d2 hd2 h0 h1 h2 h (hcand d1 h1 h2 x Wx bx) Wr Uz bu p q).trans
      (gate_row h (hcand d1 h1 h2 x Wx bx) h (cand x Wx (vec bx)) Wr Uz (vec bu) p p q (fun _ => rfl)
        (fun k => hcand_apply d1 hd1 h1 h2 x Wx bx p k))
  show hgate d2 h0 h1 h2 h (hcand d1 h1 h2 x Wx bx) Wr Uz bu (ix2 p q) * h (ix2 p q)
      + (Ideal.ofBits .f32 0x3F800000#32 - hgate d2 h0 h1 h2 h (hcand d1 h1 h2 x Wx bx) Wr Uz bu (ix2 p q)) * hcand d1 h1 h2 x Wx bx (ix2 p q)
    = gate h (cand x Wx (vec bx)) Wr Uz (vec bu) (ix2 p q) * h (ix2 p q)
      + (1 - gate h (cand x Wx (vec bx)) Wr Uz (vec bu) (ix2 p q)) * cand x Wx (vec bx) (ix2 p q)
  rw [hu, hcand_apply d1 hd1 h1 h2 x Wx bx p q, ofBits_one]

end Cert.GatedCell

end
-- ==== Proof.KernelArrays.lean ====
/-
  What the one region of the kernel's program finds and reads, at the extended reals.

  Before the region the host transposes the three weight matrices, stacks the two H × H ones one on top of the other,
  narrows the float format of the weights and of the input (the identity on the extended reals), and reshapes the two
  bias vectors to one row.  The region's grid has 32 points; at point t the state's, the input's and the result's windows
  hold rows 256 t … 256 t + 255 of their arrays, all columns; the four weight and bias windows hold their whole arrays at
  every point.
-/
import proofs.«428597_j2851858285198_3_alg».proof.Proof.Gen.KernelIdeal.Frame
import proofs.«428597_j2851858285198_3_alg».proof.Proof.LibMlp
import Idealize.ShloMosaic.Lib.Pipeline.Value
import Idealize.ShloMosaic.Lib.StableHlo.Run
import Idealize.ShloMosaic.Lib.ValueIdx
import Idealize.ShloMosaic.Lib.Tactic

noncomputable section

open Idealize.ShloMosaic Idealize.ShloMosaic.TcCoe Idealize.ShloMosaic.ValueIdx Idealize.SL.Sem
open Idealize.ShloMosaic.Pipeline (Dat)

namespace Cert.KernelIdeal.Cell

open Cert.KernelIdeal Cert.KernelIdeal.Gen

variable (m : (ℓ : Loc nD τ sig) → Buf (Elt Ideal) ℓ)

/-! ## The argument arrays, and the host's arrangements of them -/

/-- The previous state. -/
abbrev prev (c : Dev nD) : S8192x2048.Idx → EReal := m ((c : Thread nD τ).loc main_arg0)
/-- The input. -/
abbrev inp (c : Dev nD) : S8192x1024.Idx → EReal := m ((c : Thread nD τ).loc main_arg1)
/-- The input weights, transposed: contraction axis first. -/
abbrev WxT (c : Dev nD) : S1024x2048.Idx → EReal :=
  transpose S1024x2048 [1, 0] (m ((c : Thread nD τ).loc main_arg2)) transposes_S2048x1024_S1024x2048_1_0
/-- The input bias. -/
abbrev bxv (c : Dev nD) : S2048.Idx → EReal := m ((c : Thread nD τ).loc main_arg3)
/-- The recurrent weights, transposed. -/
abbrev WrT (c : Dev nD) : S2048x2048.Idx → EReal :=
  transpose S2048x2048 [1, 0] (m ((c : Thread nD τ).loc main_arg4)) transposes_S2048x2048_S2048x2048_1_0
/-- The candidate's weights in the gate, transposed. -/
abbrev UzT (c : Dev nD) : S2048x2048.Idx → EReal :=
  transpose S2048x2048 [1, 0] (m ((c : Thread nD τ).loc main_arg5)) transposes_S2048x2048_S2048x2048_1_0
/-- The gate's bias. -/
abbrev buv (c : Dev nD) : S2048.Idx → EReal := m ((c : Thread nD τ).loc main_arg6)

/-- The region finds the input as launched: narrowing its format changes no extended real. -/
theorem found_inp (c : Dev nD) : (V m c main_v6 : S8192x1024.Idx → EReal) = inp m c := by
  dsimp only [Gen.V, Gen.hostOps0]; after_results; rfl

/-- The region finds the input weights transposed. -/
theorem found_WxT (c : Dev nD) : (V m c main_v1 : S1024x2048.Idx → EReal) = WxT m c := by
  dsimp only [Gen.V, Gen.hostOps0]; after_results; rfl

/-- The region finds the two H × H weight matrices transposed and stacked, the recurrent ones on top. -/
theorem found_stack (c : Dev nD) : (V m c main_v5 : S4096x2048.Idx → EReal)
    = concatenate S4096x2048 0 [⟨S2048x2048, WrT m c⟩, ⟨S2048x2048, UzT m c⟩] concatenates_S2048x2048_S2048x2048_S4096x2048_d0 := by
  dsimp only [Gen.V, Gen.hostOps0]; after_results; rfl

/-- The region finds the input bias as one row. -/
theorem found_bx (c : Dev nD) : (V m c main_v7 : S1x2048.Idx → EReal) = shapeCast S1x2048 (bxv m c) shapeCasts_S2048_S1x2048 := by
  dsimp only [Gen.V, Gen.hostOps0]; after_results; rfl

/-- The region finds the gate's bias as one row. -/
theorem found_bu (c : Dev nD) : (V m c main_v8 : S1x2048.Idx → EReal) = shapeCast S1x2048 (buv m c) shapeCasts_S2048_S1x2048 := by
  dsimp only [Gen.V, Gen.hostOps0]; after_results; rfl

/-! ## The windows' blocks -/

/-- The printed index maps, decided over the grid: the three row windows move down one block a point, the others stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row p of point t's block is row 256 t + p of the array. -/
def rowAt (t : Fin cfg0.N) (p : Fin 256) : Fin 8192 :=
  ⟨256 * t.val + p.val, by have h := t.isLt; have hN : cfg0.N = 32 := N_0; have := p.isLt; omega⟩

/-- The state's block at point t. -/
abbrev prevBlk (c : Dev nD) (t : Fin cfg0.N) : Vec Ideal S256x2048 .f32 := iblk m c 0 t
/-- The input's block at point t. -/
abbrev inpBlk (c : Dev nD) (t : Fin cfg0.N) : Vec Ideal S256x1024 .bf16 := iblk m c 1 t
/-- The input weights' block at point t. -/
abbrev wxBlk (c : Dev nD) (t : Fin cfg0.N) : Vec Ideal S1024x2048 .bf16 := iblk m c 2 t
/-- The input bias' block at point t. -/
abbrev bxBlk (c : Dev nD) (t : Fin cfg0.N) : Vec Ideal S1x2048 .f32 := iblk m c 3 t
/-- The stacked weights' block at point t. -/
abbrev stackBlk (c : Dev nD) (t : Fin cfg0.N) : Vec Ideal S4096x2048 .bf16 := iblk m c 4 t
/-- The gate bias' block at point t. -/
abbrev buBlk (c : Dev nD) (t : Fin cfg0.N) : Vec Ideal S1x2048 .f32 := iblk m c 5 t

/-- The state's block at point t holds rows 256 t … of the state. -/
theorem prevBlk_apply (c : Dev nD) (t : Fin cfg0.N) (p : Fin 256) (k : Fin 2048) :
    prevBlk m c t (ix2 p k) = prev m c (ix2 (rowAt t p) k) := by
  obtain ⟨e0, e1, -⟩ := idx_facts t
  show iblk m c 0 t (ix2 p k) = _
  unfold iblk
  rw [View.read_apply]
  show V m c main_arg0 _ = m ((c : Thread nD τ).loc main_arg0) _
  rw [V_main_arg0]
  congr 1
  funext a
  apply Fin.ext
  match a with
  | ⟨0, _⟩ => show win0_0.index t (0 : Fin 2) * 256 + 1 * p.val = 256 * t.val + p.val; rw [e0]; omega
  | ⟨1, _⟩ => show win0_0.index t (1 : Fin 2) * 2048 + 1 * k.val = k.val; rw [e1]; omega

/-- The input's block at point t holds rows 256 t … of the input. -/
theorem inpBlk_apply (c : Dev nD) (t : Fin cfg0.N) (p : Fin 256) (k : Fin 1024) :
    inpBlk m c t (ix2 p k) = inp m c (ix2 (rowAt t p) k) := by
  obtain ⟨-, -, e0, e1, -⟩ := idx_facts t
  show iblk m c 1 t (ix2 p k) = _
  unfold iblk
  rw [View.read_apply]
  show (V m c main_v6 : S8192x1024.Idx → EReal) _ = _
  rw [found_inp]
  congr 1
  funext a
  apply Fin.ext
  match a with
  | ⟨0, _⟩ => show win0_1.index t (0 : Fin 2) * 256 + 1 * p.val = 256 * t.val + p.val; rw [e0]; omega
  | ⟨1, _⟩ => show win0_1.index t (1 : Fin 2) * 1024 + 1 * k.val = k.val; rw [e1]; omega

/-- The input weights' window holds the whole transposed matrix at every point. -/
theorem wxBlk_eq (c : Dev nD) (t : Fin cfg0.N) : wxBlk m c t = WxT m c := by
  obtain ⟨-, -, -, -, e0, e1, -⟩ := idx_facts t
  funext y
  show iblk m c 2 t y = _
  unfold iblk
  rw [View.read_apply]
  show (V m c main_v1 : S1024x2048.Idx → EReal) _ = _
  rw [found_WxT]
  congr 1
  funext a
  apply Fin.ext
  match a with
  | ⟨0, _⟩ => show win0_2.index t (0 : Fin 2) * 1024 + 1 * (y 0).val = (y 0).val; rw [e0]; omega
  | ⟨1, _⟩ => show win0_2.index t (1 : Fin 2) * 2048 + 1 * (y 1).val = (y 1).val; rw [e1]; omega

/-- The input bias' window holds the whole one-row bias at every point. -/
theorem bxBlk_eq (c : Dev nD) (t : Fin cfg0.N) : bxBlk m c t = shapeCast S1x2048 (bxv m c) shapeCasts_S2048_S1x2048 := by
  obtain ⟨-, -, -, -, -, -, e0, e1, -⟩ := idx_facts t
  funext y
  show iblk m c 3 t y = _
  unfold iblk
  rw [View.read_apply]
  show (V m c main_v7 : S1x2048.Idx → EReal) _ = _
  rw [found_bx]
  congr 1
  funext a
  apply Fin.ext
  match a with
  | ⟨0, _⟩ => show win0_3.index t (0 : Fin 2) * 1 + 1 * (y 0).val = (y 0).val; rw [e0]; omega
  | ⟨1, _⟩ => show win0_3.index t (1 : Fin 2) * 2048 + 1 * (y 1).val = (y 1).val; rw [e1]; omega

/-- The stacked weights' window holds the whole stack at every point. -/
theorem stackBlk_eq (c : Dev nD) (t : Fin cfg0.N) : stackBlk m c t
    = concatenate S4096x2048 0 [⟨S2048x2048, WrT m c⟩, ⟨S2048x2048, UzT m c⟩] concatenates_S2048x2048_S2048x2048_S4096x2048_d0 := by
  obtain ⟨-, -, -, -, -, -, -, -, e0, e1, -⟩ := idx_facts t
  funext y
  show iblk m c 4 t y = _
  unfold iblk
  rw [View.read_apply]
  show (V m c main_v5 : S4096x2048.Idx → EReal) _ = _
  rw [found_stack]
  congr 1
  funext a
  apply Fin.ext
  match a with
  | ⟨0, _⟩ => show win0_4.index t (0 : Fin 2) * 4096 + 1 * (y 0).val = (y 0).val; rw [e0]; omega
  | ⟨1, _⟩ => show win0_4.index t (1 : Fin 2) * 2048 + 1 * (y 1).val = (y 1).val; rw [e1]; omega

/-- The gate bias' window holds the whole one-row bias at every point. -/
theorem buBlk_eq (c : Dev nD) (t : Fin cfg0.N) : buBlk m c t = shapeCast S1x2048 (buv m c) shapeCasts_S2048_S1x2048 := by
  obtain ⟨-, -, -, -, -, -, -, -, -, -, e0, e1, -⟩ := idx_facts t
  funext y
  show iblk m c 5 t y = _
  unfold iblk
  rw [View.read_apply]
  show (V m c main_v8 : S1x2048.Idx → EReal) _ = _
  rw [found_bu]
  congr 1
  funext a
  apply Fin.ext
  match a with
  | ⟨0, _⟩ => show win0_5.index t (0 : Fin 2) * 1 + 1 * (y 0).val = (y 0).val; rw [e0]; omega
  | ⟨1, _⟩ => show win0_5.index t (1 : Fin 2) * 2048 + 1 * (y 1).val = (y 1).val; rw [e1]; omega

end Cert.KernelIdeal.Cell

end
-- ==== Proof.KernelValue.lean ====
/-
  The kernel's result array, at the extended reals, is the gated cell of the argument arrays.

  At grid point t the body computes the cell of the point's blocks — rows 256 t … 256 t + 255 of the state and of the input,
  the whole weight and bias arrays — and writes it to rows 256 t … of the result.  The cell's row r depends on row r of the state
  and of the input only, so what point t writes is rows 256 t … of the cell of the WHOLE arrays; the 32 points' row blocks
  tile the result, so the result ends holding that cell.
-/
import proofs.«428597_j2851858285198_3_alg».proof.Proof.Gen.KernelIdeal.Value
import proofs.«428597_j2851858285198_3_alg».proof.Proof.KernelArrays
import proofs.«428597_j2851858285198_3_alg».proof.Proof.LibGatedCellSpell

noncomputable section

open Idealize.ShloMosaic Idealize.ShloMosaic.TcCoe Idealize.ShloMosaic.ValueIdx Idealize.SL.Sem
open Idealize.ShloMosaic.Pipeline (Dat)

namespace Cert.KernelIdeal.Cell

open Cert.KernelIdeal Cert.KernelIdeal.Gen Cert.GatedCell
open Cert.Mlp (row vec row_shapeCast)

variable (m : (ℓ : Loc nD τ sig) → Buf (Elt Ideal) ℓ) (ρ : Dev nD → PrngReg)

/-- THE RESULT: the gated cell of the argument arrays, the weights transposed. -/
def result (c : Dev nD) : S8192x2048.Idx → EReal :=
  cell (prev m c) (inp m c) (WxT m c) (vec (bxv m c)) (WrT m c) (UzT m c) (vec (buv m c))

theorem hz : (![0, 0] : Fin 2 → Nat) = fun _ => 0 := funext fun a => by fin_cases a <;> rfl

/-- The body's payload is the vector dialect's cell of its six loaded blocks, whatever two matrices the stacked
    weights' block holds above and below its middle row. -/
theorem payload_eq (x0 : Vec Ideal S256x2048 .f32) (x1 : Vec Ideal S256x1024 .bf16) (x3 : Vec Ideal S1024x2048 .bf16)
    (x6 : Vec Ideal S1x2048 .f32) (x14 : Vec Ideal S4096x2048 .bf16) (x17 : Vec Ideal S1x2048 .f32)
    (Wr Uz : S2048x2048.Idx → EReal)
    (hWr : ∀ k q : Fin 2048, x14 (ix2 (Fin.castAdd 2048 k) q) = Wr (ix2 k q))
    (hUz : ∀ k q : Fin 2048, x14 (ix2 (Fin.natAdd 2048 k) q) = Uz (ix2 k q)) :
    k0_pay1 (F := Ideal) x0 x1 x3 x6 x14 x17 = cell x0 x1 x3 (row x6) Wr Uz (row x17) := by
  -- the body re-casts each loaded block to its own shape: the identity
  have e1 : shapeCast S256x1024 x1 shapeCasts_S256x1024_S256x1024 = x1 := shapeCast_self _ _
  have e3 : shapeCast S1024x2048 x3 shapeCasts_S1024x2048_S1024x2048 = x3 := shapeCast_self _ _
  have e6 : shapeCast S1x2048 x6 shapeCasts_S1x2048_S1x2048 = x6 := shapeCast_self _ _
  have e14 : shapeCast S4096x2048 x14 shapeCasts_S4096x2048_S4096x2048 = x14 := shapeCast_self _ _
  have e17 : shapeCast S1x2048 x17 shapeCasts_S1x2048_S1x2048 = x17 := shapeCast_self _ _
  unfold k0_pay1
  refine (vec_cell (N := 256) (K := 1024) (H := 2048) dot_S256x1024_S1024x2048_S256x2048_1_0_0_1_n_n rfl
    dot_S256x4096_S4096x2048_S256x2048_1_0_0_1_n_n rfl broadcasts_S1x2048_S256x2048
    concatenates_S256x2048_S256x2048_S256x4096_d1 bitsLt_bf16_f32 x0
    (shapeCast S256x1024 x1 shapeCasts_S256x1024_S256x1024) (shapeCast S1024x2048 x3 shapeCasts_S1024x2048_S1024x2048)
    (shapeCast S1x2048 x6 shapeCasts_S1x2048_S1x2048) (shapeCast S4096x2048 x14 shapeCasts_S4096x2048_S4096x2048)
    (shapeCast S1x2048 x17 shapeCasts_S1x2048_S1x2048) Wr Uz
    (fun k q => (congrFun e14 _).trans (hWr k q)) (fun k q => (congrFun e14 _).trans (hUz k q))).trans ?_
  rw [e1, e3, e6, e17]

/-- WHAT POINT t WRITES BACK is block t of the result. -/
theorem flushed_eq (c : Dev nD) (t : Fin cfg0.N) :
    (dats m 0 c).flushed 6 t = ((cfg0.win 6).blk t).view.read (Elt Ideal) (result m c) := by
  obtain ⟨-, -, -, -, -, -, -, -, -, -, -, -, e0, e1⟩ := idx_facts t
  rw [Cert.KernelIdeal.Value.flushed6]
  unfold out0_6
  rw [View.canon_unit_zero hz]
  simp only [View.ld_unit_zero (S := S256x2048) hz, View.ld_unit_zero (S := S256x1024) hz,
    View.ld_unit_zero (S := S1024x2048) hz, View.ld_unit_zero (S := S1x2048) hz, View.ld_unit_zero (S := S4096x2048) hz]
  funext j
  obtain ⟨p, q, rfl⟩ : ∃ (p : Fin 256) (q : Fin 2048), j = ix2 p q := ⟨j 0, j 1, eq_ix2 j⟩
  show k0_pay1 (F := Ideal) (prevBlk m c t) (inpBlk m c t) (wxBlk m c t) (bxBlk m c t) (stackBlk m c t) (buBlk m c t) (ix2 p q)
    = result m c (((cfg0.win 6).blk t).view.emb (ix2 p q))
  have hemb : ((cfg0.win 6).blk t).view.emb (ix2 p q) = ix2 (rowAt t p) q := by
    funext a
    apply Fin.ext
    match a with
    | ⟨0, _⟩ => show win0_6.index t (0 : Fin 2) * 256 + 1 * p.val = 256 * t.val + p.val; rw [e0]; omega
    | ⟨1, _⟩ => show win0_6.index t (1 : Fin 2) * 2048 + 1 * q.val = q.val; rw [e1]; omega
  rw [hemb, payload_eq (prevBlk m c t) (inpBlk m c t) (wxBlk m c t) (bxBlk m c t) (stackBlk m c t) (buBlk m c t) (WrT m c) (UzT m c)
    (fun k q => by rw [stackBlk_eq]; exact stacked_upper _ _ _ k q)
    (fun k q => by rw [stackBlk_eq]; exact stacked_lower _ _ _ k q),
    wxBlk_eq, bxBlk_eq, buBlk_eq, row_shapeCast, row_shapeCast]
  exact cell_row (prevBlk m c t) (prev m c) (inpBlk m c t) (inp m c) (WxT m c) (vec (bxv m c)) (WrT m c) (UzT m c)
    (vec (buv m c)) p (rowAt t p) q (fun k => prevBlk_apply m c t p k) (fun k => inpBlk_apply m c t p k)

/-- An index of the result is in point t's block iff its row is one of the block's 256 and its column any. -/
theorem mem_blk (t : Fin cfg0.N) (i : S8192x2048.Idx) :
    i ∈ ((cfg0.win 6).blk t).view.set ↔ ∀ a : Fin 2, win0_6.index t a * S256x2048.size a ≤ (i a).val
      ∧ (i a).val < win0_6.index t a * S256x2048.size a + S256x2048.size a := by
  show i ∈ ((View.whole main_v9).slice (win0_6.rect t)).set ↔ _
  rw [View.set_slice_whole, Rect.mem_set_unit]
  exact Iff.rfl

/-- Every index of the result is in the block of the point its row falls in: row r in point r / 256's. -/
theorem covered (i : S8192x2048.Idx) :
    ∃ t : Fin cfg0.N, (cfg0.win 6).flush t = true ∧ i ∈ ((cfg0.win 6).blk t).view.set := by
  have hN : cfg0.N = 32 := N_0
  have hi0 : (i 0).val < 8192 := (i 0).isLt
  have hi1 : (i 1).val < 2048 := (i 1).isLt
  obtain ⟨t, ht⟩ : ∃ t : Fin cfg0.N, t.val = (i 0).val / 256 := ⟨⟨(i 0).val / 256, by omega⟩, rfl⟩
  obtain ⟨-, -, -, -, -, -, -, -, -, -, -, -, e0, e1⟩ := idx_facts t
  refine ⟨t, flush0_6 t, ?_⟩
  rw [mem_blk]
  intro a
  match a with
  | ⟨0, _⟩ =>
    show win0_6.index t (0 : Fin 2) * 256 ≤ (i 0).val ∧ (i 0).val < win0_6.index t (0 : Fin 2) * 256 + 256
    rw [e0]; omega
  | ⟨1, _⟩ =>
    show win0_6.index t (1 : Fin 2) * 2048 ≤ (i 1).val ∧ (i 1).val < win0_6.index t (1 : Fin 2) * 2048 + 2048
    rw [e1]; omega

/-- THE RESULT ARRAY after the run. -/
theorem final (c : Dev nD) : (dats m 0 c).arrAt 6 cfg0.N = result m c :=
  (dats m 0 c).arrAt_eq_of_cover 6 (result m c) (fun t _ => flushed_eq m c t) covered

/-- The run, read: the result array ends at the cell of the argument arrays, the arguments unchanged. -/
theorem run : θ_run defs (onTc (τ := τ) (main (F := Ideal))) ⟨m, fun _ => 0, ρ⟩ fun r => ∀ c : Dev nD,
      r.2.mem ((c : Thread nD τ).loc main_v9) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩)
    (Cert.KernelIdeal.Value.run_blocks m ρ)

end Cert.KernelIdeal.Cell

end
-- ==== Proof.lean ====
/- The proof of Cert.Claim for a gated recurrent cell:

       z = tanh (x · Wxᵀ + bx),   u = logistic (h · Wrᵀ + z · Uzᵀ + bu),   h' = u * h + (1 - u) * z

   computed by a kernel over 32 blocks of 256 rows against a plain array program.

   The three frames: the two kernel programs' are generated whole; the reference has no kernel, and its frame is its
   generated run with the result dropped.  The idealization rewrote nothing, so preserves is trivial.

   The algebraic claim: both programs end with the result array at ONE function of the argument arrays, the cell
   (Proof/LibGatedCell.lean) of the state, the input and the transposed weights.  The kernel's side is Proof/KernelValue.lean:
   each grid point writes the cell of its row blocks, the cell is local to rows, and the blocks tile the array; the kernel
   merges the gate's two contractions into one of double width, which splits back into the two because a finite sum over
   Fin (H + H) splits at H.  The reference's side is the generated run, whose term is the host's spelling of the cell
   (Proof/LibGatedCellSpell.lean): it writes the logistic function out as 1 / (1 + exp (-s)), the function's own definition
   on the extended reals.  No step uses the finiteness of the inputs. -/
import proofs.«428597_j2851858285198_3_alg».proof.Defs
import proofs.«428597_j2851858285198_3_alg».proof.Proof.Gen.Kernel
import proofs.«428597_j2851858285198_3_alg».proof.Proof.Gen.Kernel.Skeleton
import proofs.«428597_j2851858285198_3_alg».proof.Proof.Gen.Kernel.Launch
import proofs.«428597_j2851858285198_3_alg».proof.Proof.Gen.Kernel.Points
import proofs.«428597_j2851858285198_3_alg».proof.Proof.Gen.Kernel.Frame
import proofs.«428597_j2851858285198_3_alg».proof.Proof.Gen.KernelIdeal
import proofs.«428597_j2851858285198_3_alg».proof.Proof.Gen.KernelIdeal.Skeleton
import proofs.«428597_j2851858285198_3_alg».proof.Proof.Gen.KernelIdeal.Launch
import proofs.«428597_j2851858285198_3_alg».proof.Proof.Gen.KernelIdeal.Points
import proofs.«428597_j2851858285198_3_alg».proof.Proof.Gen.KernelIdeal.Frame
import proofs.«428597_j2851858285198_3_alg».proof.Proof.Gen.ReferenceIdeal
import proofs.«428597_j2851858285198_3_alg».proof.Proof.Gen.Pre_finite_inputs
import proofs.«428597_j2851858285198_3_alg».proof.Proof.Gen.KernelIdeal.Value
import proofs.«428597_j2851858285198_3_alg».proof.Proof.Gen.ReferenceIdeal.Run
import proofs.«428597_j2851858285198_3_alg».proof.Proof.LibGatedCellSpell
import proofs.«428597_j2851858285198_3_alg».proof.Proof.KernelValue
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the result array at the cell of the kernel's
    argument arrays: the kernel by its blocks, the reference because its run's term is the host's spelling of the cell. -/
theorem algebraic : Cert.algebraic_KernelIdeal_ReferenceIdeal := by
  intro m ρ m' ρ' _ hagree
  refine ⟨fun c => Cert.KernelIdeal.Cell.result m c, Cert.KernelIdeal.Cell.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [a0, a1, a2, a3, a4, a5, a6]
  exact Cert.GatedCell.host_cell (N := 8192) (K := 1024) (H := 2048)
    Cert.ReferenceIdeal.dot_S8192x1024_S1024x2048_S8192x2048_1_0_0_1_n_n rfl
    Cert.ReferenceIdeal.dot_S8192x2048_S2048x2048_S8192x2048_1_0_0_1_n_n rfl
    Cert.ReferenceIdeal.Facts₀.bcast_S_S8192x2048 Cert.ReferenceIdeal.Facts₀.bcast_S2048_S1x2048_1
    Cert.ReferenceIdeal.Facts₀.bcast_S1x2048_S8192x2048_0_1 _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
